-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x256x256 : Shape := ⟨4, ![16, 64, 256, 256]⟩
abbrev S64x40 : Shape := ⟨2, ![64, 40]⟩
abbrev S_ : Shape := ⟨0, ![]⟩

class Facts : Prop where
  bcast_S_S16x64x256x256 : S_.BroadcastsInDim S16x64x256x256 (![] : Fin 0 → Fin S16x64x256x256.rank)
  reducesTo_S16x64x256x256_S_d0_1_2_3 : S16x64x256x256.ReducesTo [0, 1, 2, 3] S_
  h_S_ : 0 < S_.numel
  bcast_S_S64x40 : S_.BroadcastsInDim S64x40 (![] : Fin 0 → Fin S64x40.rank)
  reducesTo_S64x40_S_d0_1 : S64x40.ReducesTo [0, 1] S_

variable [Facts]

def fn {F : FTy → Type} [FloatOps F] (main_arg0 : FVec F S16x64x256x256 .f32) (main_arg1 : FVec F S64x40 .f32) (main_arg2 : FVec F S64x40 .f32) : IVec S_ 1 :=
  let main_v0 : FVec F S16x64x256x256 .f32 := Host.absf main_arg0
  let main_cst : FVec F S_ .f32 := constant S_ .f32 0x7F800000#32
  let main_v1 : FVec F S16x64x256x256 .f32 := broadcastInDim S16x64x256x256 ![] bcast_S_S16x64x256x256 main_cst
  let main_v2 : IVec S16x64x256x256 1 := cmpf .olt main_v0 main_v1
  let main_c : IVec S_ 1 := constantI S_ 1 1#1
  let main_v3 : IVec S_ 1 := (fun x v => Host.reduce IntOp.andi x v reducesTo_S16x64x256x256_S_d0_1_2_3 h_S_) main_v2 main_c
  let main_v4 : FVec F S64x40 .f32 := Host.absf main_arg1
  let main_cst_0 : FVec F S_ .f32 := constant S_ .f32 0x7F800000#32
  let main_v5 : FVec F S64x40 .f32 := broadcastInDim S64x40 ![] bcast_S_S64x40 main_cst_0
  let main_v6 : IVec S64x40 1 := cmpf .olt main_v4 main_v5
  let main_c_1 : IVec S_ 1 := constantI S_ 1 1#1
  let main_v7 : IVec S_ 1 := (fun x v => Host.reduce IntOp.andi x v reducesTo_S64x40_S_d0_1 h_S_) main_v6 main_c_1
  let main_v8 : IVec S_ 1 := andi main_v3 main_v7
  let main_v9 : FVec F S64x40 .f32 := Host.absf main_arg2
  let main_cst_2 : FVec F S_ .f32 := constant S_ .f32 0x7F800000#32
  let main_v10 : FVec F S64x40 .f32 := broadcastInDim S64x40 ![] bcast_S_S64x40 main_cst_2
  let main_v11 : IVec S64x40 1 := cmpf .olt main_v9 main_v10
  let main_c_3 : IVec S_ 1 := constantI S_ 1 1#1
  let main_v12 : IVec S_ 1 := (fun x v => Host.reduce IntOp.andi x v reducesTo_S64x40_S_d0_1 h_S_) main_v11 main_c_3
  let main_v13 : IVec S_ 1 := andi main_v8 main_v12
  main_v13
-- ==== Kernel.lean ====
abbrev S16x64x256x256 : Shape := ⟨4, ![16, 64, 256, 256]⟩
abbrev S64x40 : Shape := ⟨2, ![64, 40]⟩
abbrev S16x1x256x256 : Shape := ⟨4, ![16, 1, 256, 256]⟩
abbrev S1x40 : Shape := ⟨2, ![1, 40]⟩
abbrev S40 : Shape := ⟨1, ![40]⟩
abbrev S1 : Shape := ⟨1, ![1]⟩

abbrev nBuf : Space → Nat
  | .hbm => 4
  | .vmem => 6
  | .smem => 0
  | _ => 0

abbrev bufTy : (tb : Table) → Fin (tcTables nBuf tb) → BufTy
  | .hbm, ⟨0, _⟩ => ⟨S16x64x256x256, .f32⟩
  | .hbm, ⟨1, _⟩ => ⟨S64x40, .f32⟩
  | .hbm, ⟨2, _⟩ => ⟨S64x40, .f32⟩
  | .hbm, ⟨3, _⟩ => ⟨S16x64x256x256, .f32⟩
  | .local _ .vmem, ⟨0, _⟩ => ⟨S16x1x256x256, .f32⟩
  | .local _ .vmem, ⟨1, _⟩ => ⟨S16x1x256x256, .f32⟩
  | .local _ .vmem, ⟨2, _⟩ => ⟨S64x40, .f32⟩
  | .local _ .vmem, ⟨3, _⟩ => ⟨S64x40, .f32⟩
  | .local _ .vmem, ⟨4, _⟩ => ⟨S16x1x256x256, .f32⟩
  | .local _ .vmem, ⟨5, _⟩ => ⟨S16x1x256x256, .f32⟩
  | _, _ => ⟨S16x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def k0_off1 (i : grid0.Coords) : Fin 2 → Nat :=
  let arg0 : BitVec 32 := BitVec.ofNat 32 (i 0).val
  let v11 : Index := Scalar.indexCast arg0
  let c0_3 : Index := 0#32
  ![v11.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S16x1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x40 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S16x1x256x256_S16x1x256x256_0_0_0_0 : ∀ a, (![0, 0, 0, 0] : Fin 4 → Nat) a + S16x1x256x256.size a ≤ S16x1x256x256.size a
  h_S16x1x256x256 : 0 < S16x1x256x256.numel
  h_S1x40 : 0 < S1x40.numel
  shapeCasts_S1x40_S40 : S1x40.ShapeCasts S40
  slices_S40_o0_S1 : S40.Slices ![0] S1
  inpos_S1_p0 : ∀ a, (![0] : Fin 1 → Nat) a < S1.size a
  slices_S40_o1_S1 : S40.Slices ![1] S1
  slices_S40_o2_S1 : S40.Slices ![2] S1
  slices_S40_o3_S1 : S40.Slices ![3] S1
  slices_S40_o4_S1 : S40.Slices ![4] S1
  slices_S40_o5_S1 : S40.Slices ![5] S1
  slices_S40_o6_S1 : S40.Slices ![6] S1
  slices_S40_o7_S1 : S40.Slices ![7] S1
  slices_S40_o8_S1 : S40.Slices ![8] S1
  slices_S40_o9_S1 : S40.Slices ![9] S1
  slices_S40_o10_S1 : S40.Slices ![10] S1
  slices_S40_o11_S1 : S40.Slices ![11] S1
  slices_S40_o12_S1 : S40.Slices ![12] S1
  slices_S40_o13_S1 : S40.Slices ![13] S1
  slices_S40_o14_S1 : S40.Slices ![14] S1
  slices_S40_o15_S1 : S40.Slices ![15] S1
  slices_S40_o16_S1 : S40.Slices ![16] S1
  slices_S40_o17_S1 : S40.Slices ![17] S1
  slices_S40_o18_S1 : S40.Slices ![18] S1
  slices_S40_o19_S1 : S40.Slices ![19] S1
  slices_S40_o20_S1 : S40.Slices ![20] S1
  slices_S40_o21_S1 : S40.Slices ![21] S1
  slices_S40_o22_S1 : S40.Slices ![22] S1
  slices_S40_o23_S1 : S40.Slices ![23] S1
  slices_S40_o24_S1 : S40.Slices ![24] S1
  slices_S40_o25_S1 : S40.Slices ![25] S1
  slices_S40_o26_S1 : S40.Slices ![26] S1
  slices_S40_o27_S1 : S40.Slices ![27] S1
  slices_S40_o28_S1 : S40.Slices ![28] S1
  slices_S40_o29_S1 : S40.Slices ![29] S1
  slices_S40_o30_S1 : S40.Slices ![30] S1
  slices_S40_o31_S1 : S40.Slices ![31] S1
  slices_S40_o32_S1 : S40.Slices ![32] S1
  slices_S40_o33_S1 : S40.Slices ![33] S1
  slices_S40_o34_S1 : S40.Slices ![34] S1
  slices_S40_o35_S1 : S40.Slices ![35] S1
  slices_S40_o36_S1 : S40.Slices ![36] S1
  slices_S40_o37_S1 : S40.Slices ![37] S1
  slices_S40_o38_S1 : S40.Slices ![38] S1
  slices_S40_o39_S1 : S40.Slices ![39] S1
  hrank0 : 0 < grid0.rank
  k0_off1_inb : ∀ i : grid0.Coords, ∀ a, (k0_off1 i) a + S1x40.size a ≤ S64x40.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1x256x256.size a ≤ S16x64x256x256.size a
  hwx0_0 : ∀ i : grid0.Coords, EltTy.bits .f32 = 32 ∨ (Rect.block (s := S16x64x256x256) S16x1x256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x40.size a ≤ S64x40.size a
  hwx0_1 : ∀ i : grid0.Coords, EltTy.bits .f32 = 32 ∨ (Rect.block (s := S64x40) S64x40.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x40.size a ≤ S64x40.size a
  hwx0_2 : ∀ i : grid0.Coords, EltTy.bits .f32 = 32 ∨ (Rect.block (s := S64x40) S64x40.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1x256x256.size a ≤ S16x64x256x256.size a
  hwx0_3 : ∀ i : grid0.Coords, EltTy.bits .f32 = 32 ∨ (Rect.block (s := S16x64x256x256) S16x1x256x256.size (cc0_transform_3 i) (hinb0_3 i)).WholeWords (EltTy.packing .f32)

variable [Facts₀]

abbrev win0_0 : Pipeline.Window sig grid0 :=
  Pipeline.Window.ofSpec (Memref.whole main_arg0) S16x1x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x40.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x40.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S16x1x256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x64x256x256 : Shape := ⟨4, ![16, 64, 256, 256]⟩
abbrev S64x40 : Shape := ⟨2, ![64, 40]⟩
abbrev S_ : Shape := ⟨0, ![]⟩
abbrev S64 : Shape := ⟨1, ![64]⟩
abbrev S1x64x1x1 : Shape := ⟨4, ![1, 64, 1, 1]⟩
abbrev S16x64x256x256x1 : Shape := ⟨5, ![16, 64, 256, 256, 1]⟩
abbrev S16x64x256x256x2 : Shape := ⟨5, ![16, 64, 256, 256, 2]⟩

abbrev nBuf : Space → Nat
  | .hbm => 61
  | .vmem => 0
  | .smem => 0
  | _ => 0

abbrev bufTy : (tb : Table) → Fin (tcTables nBuf tb) → BufTy
  | .hbm, ⟨0, _⟩ => ⟨S16x64x256x256, .f32⟩
  | .hbm, ⟨1, _⟩ => ⟨S64x40, .f32⟩
  | .hbm, ⟨2, _⟩ => ⟨S64x40, .f32⟩
  | .hbm, ⟨3, _⟩ => ⟨S_, .f32⟩
  | .hbm, ⟨4, _⟩ => ⟨S16x64x256x256, .f32⟩
  | .hbm, ⟨5, _⟩ => ⟨S16x64x256x256, .f32⟩
  | .hbm, ⟨6, _⟩ => ⟨S16x64x256x256, .f32⟩
  | .hbm, ⟨7, _⟩ => ⟨S16x64x256x256, .i32⟩
  | .hbm, ⟨8, _⟩ => ⟨S_, .i32⟩
  | .hbm, ⟨9, _⟩ => ⟨S16x64x256x256, .i32⟩
  | .hbm, ⟨10, _⟩ => ⟨S16x64x256x256, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S16x64x256x256, .i32⟩
  | .hbm, ⟨15, _⟩ => ⟨S16x64x256x256, .i32⟩
  | .hbm, ⟨16, _⟩ => ⟨S_, .i32⟩
  | .hbm, ⟨17, _⟩ => ⟨S16x64x256x256, .i32⟩
  | .hbm, ⟨18, _⟩ => ⟨S16x64x256x256, .i32⟩
  | .hbm, ⟨19, _⟩ => ⟨S64, .i32⟩
  | .hbm, ⟨20, _⟩ => ⟨S1x64x1x1, .i32⟩
  | .hbm, ⟨21, _⟩ => ⟨S_, .i32⟩
  | .hbm, ⟨22, _⟩ => ⟨S1x64x1x1, .i32⟩
  | .hbm, ⟨23, _⟩ => ⟨S1x64x1x1, .i1⟩
  | .hbm, ⟨24, _⟩ => ⟨S_, .i32⟩
  | .hbm, ⟨25, _⟩ => ⟨S1x64x1x1, .i32⟩
  | .hbm, ⟨26, _⟩ => ⟨S1x64x1x1, .i32⟩
  | .hbm, ⟨27, _⟩ => ⟨S1x64x1x1, .i32⟩
  | .hbm, ⟨28, _⟩ => ⟨S_, .i32⟩
  | .hbm, ⟨29, _⟩ => ⟨S16x64x256x256, .i32⟩
  | .hbm, ⟨30, _⟩ => ⟨S16x64x256x256, .i1⟩
  | .hbm, ⟨31, _⟩ => ⟨S_, .i32⟩
  | .hbm, ⟨32, _⟩ => ⟨S16x64x256x256, .i32⟩
  | .hbm, ⟨33, _⟩ => ⟨S16x64x256x256, .i32⟩
  | .hbm, ⟨34, _⟩ => ⟨S16x64x256x256, .i32⟩
  | .hbm, ⟨35, _⟩ => ⟨S16x64x256x256, .i32⟩
  | .hbm, ⟨36, _⟩ => ⟨S16x64x256x256x1, .i32⟩
  | .hbm, ⟨37, _⟩ => ⟨S16x64x256x256x1, .i32⟩
  | .hbm, ⟨38, _⟩ => ⟨S16x64x256x256x2, .i32⟩
  | .hbm, ⟨39, _⟩ => ⟨S16x64x256x256, .f32⟩
  | .hbm, ⟨40, _⟩ => ⟨S_, .i32⟩
  | .hbm, ⟨41, _⟩ => ⟨S1x64x1x1, .i32⟩
  | .hbm, ⟨42, _⟩ => ⟨S1x64x1x1, .i1⟩
  | .hbm, ⟨43, _⟩ => ⟨S_, .i32⟩
  | .hbm, ⟨44, _⟩ => ⟨S1x64x1x1, .i32⟩
  | .hbm, ⟨45, _⟩ => ⟨S1x64x1x1, .i32⟩
  | .hbm, ⟨46, _⟩ => ⟨S1x64x1x1, .i32⟩
  | .hbm, ⟨47, _⟩ => ⟨S_, .i32⟩
  | .hbm, ⟨48, _⟩ => ⟨S16x64x256x256, .i32⟩
  | .hbm, ⟨49, _⟩ => ⟨S16x64x256x256, .i1⟩
  | .hbm, ⟨50, _⟩ => ⟨S_, .i32⟩
  | .hbm, ⟨51, _⟩ => ⟨S16x64x256x256, .i32⟩
  | .hbm, ⟨52, _⟩ => ⟨S16x64x256x256, .i32⟩
  | .hbm, ⟨53, _⟩ => ⟨S16x64x256x256, .i32⟩
  | .hbm, ⟨54, _⟩ => ⟨S16x64x256x256, .i32⟩
  | .hbm, ⟨55, _⟩ => ⟨S16x64x256x256x1, .i32⟩
  | .hbm, ⟨56, _⟩ => ⟨S16x64x256x256x1, .i32⟩
  | .hbm, ⟨57, _⟩ => ⟨S16x64x256x256x2, .i32⟩
  | .hbm, ⟨58, _⟩ => ⟨S16x64x256x256, .f32⟩
  | .hbm, ⟨59, _⟩ => ⟨S16x64x256x256, .f32⟩
  | .hbm, ⟨60, _⟩ => ⟨S16x64x256x256, .f32⟩
  | _, _ => ⟨S16x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_c_3 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_4 : Ref sig .tc := ⟨.hbm, 28, rfl⟩
abbrev main_v14 : Ref sig .tc := ⟨.hbm, 29, rfl⟩
abbrev main_v15 : Ref sig .tc := ⟨.hbm, 30, rfl⟩
abbrev main_c_5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_c_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_8 : Ref sig .tc := ⟨.hbm, 47, rfl⟩
abbrev main_v29 : Ref sig .tc := ⟨.hbm, 48, rfl⟩
abbrev main_v30 : Ref sig .tc := ⟨.hbm, 49, rfl⟩
abbrev main_c_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]

class Facts₀ : Prop where
  bcast_S_S16x64x256x256 : S_.BroadcastsInDim S16x64x256x256 (![] : Fin 0 → Fin S16x64x256x256.rank)
  shapeCasts_S64_S1x64x1x1 : S64.ShapeCasts S1x64x1x1
  bcast_S_S1x64x1x1 : S_.BroadcastsInDim S1x64x1x1 (![] : Fin 0 → Fin S1x64x1x1.rank)
  bcast_S1x64x1x1_S16x64x256x256_0_1_2_3 : S1x64x1x1.BroadcastsInDim S16x64x256x256 (![0, 1, 2, 3] : Fin 4 → Fin S16x64x256x256.rank)
  bcast_S16x64x256x256_S16x64x256x256x1_0_1_2_3 : S16x64x256x256.BroadcastsInDim S16x64x256x256x1 (![0, 1, 2, 3] : Fin 4 → Fin S16x64x256x256x1.rank)
  concatenates_S16x64x256x256x1_S16x64x256x256x1_S16x64x256x256x2_d4 : Shape.Concatenates [S16x64x256x256x1, S16x64x256x256x1] S16x64x256x256x2 4
  gather_S64x40_S16x64x256x256x2_S16x64x256x256_n_01_n_n_01_4_11_wf : GatherDims.WF S64x40 S16x64x256x256x2 S16x64x256x256 [] [0, 1] [] [0, 1] [] 4 ![1, 1]

variable [Facts₀]

def gather_S64x40_S16x64x256x256x2_S16x64x256x256_n_01_n_n_01_4_11 : GatherDims S64x40 S16x64x256x256x2 S16x64x256x256 where
  offsetDims := []
  collapsedSliceDims := [0, 1]
  operandBatchingDims := []
  startIndicesBatchingDims := []
  startIndexMap := [0, 1]
  indexVectorDim := 4
  sliceSizes := ![1, 1]
  wf := gather_S64x40_S16x64x256x256x2_S16x64x256x256_n_01_n_n_01_4_11_wf

class Facts : Prop extends Facts₀ where

variable [Facts]
-- ==== Proof.Bins.lean ====
/-
  The bin lookup, as mathematics. Every element `x` of the input is sent to a bin word
  `clamp₀³⁹ (⌊20·x⌋ + 20)` (a signed 32-bit word clamped into `[0, 39]`), and the result at that
  element is `w[c, bin] · x + b[c, bin]` with `c` the element's channel. One program finds the
  table entry by a scan over the forty bins, keeping the entry whose number equals the word; the
  other reads the table at the (channel, bin) pair. This module has the word, the scan and its
  value, and the whole-array function `G` both programs compute.
-/
import Idealize.ShloMosaic.PureOps.Ideal
import Idealize.ShloMosaic.Lib.ValueIdx

noncomputable section

namespace Cert.Mtlu

open Idealize.ShloMosaic Idealize.ShloMosaic.ValueIdx

/-- The input's shape and the tables' shape. -/
abbrev SX : Shape := ⟨4, ![16, 64, 256, 256]⟩
abbrev ST : Shape := ⟨2, ![64, 40]⟩

/-! ## A word clamped into `[0, 39]` -/

/-- `min 39 (max 0 a)` on signed 32-bit words. -/
def clampBin (a : BitVec 32) : BitVec 32 := IntOp.minsi 39#32 (IntOp.maxsi 0#32 a)

/-- The clamped word, read as a signed integer, lies in `[0, 39]`. -/
theorem clampBin_range (a : BitVec 32) : 0 ≤ (clampBin a).toInt ∧ (clampBin a).toInt ≤ 39 := by
  unfold clampBin IntOp.minsi IntOp.maxsi
  have h39 : (39#32 : BitVec 32).toInt = 39 := by decide
  have h0 : (0#32 : BitVec 32).toInt = 0 := by decide
  by_cases h1 : a.slt 0#32 = true
  · rw [if_pos h1]
    have : (39#32 : BitVec 32).slt 0#32 = false := by decide
    simp [this, h0]
  · rw [if_neg h1]
    have h1' : ¬ a.toInt < 0 := by
      intro h; apply h1; simp [BitVec.slt, h0, h]
    by_cases h2 : (39#32 : BitVec 32).slt a = true
    · rw [if_pos h2]; simp [h39]
    · rw [if_neg h2]
      have h2' : ¬ 39 < a.toInt := by
        intro h; apply h2; simp [BitVec.slt, h39, h]
      omega

/-- So as an unsigned number it is below 40 … -/
theorem clampBin_toNat_lt (a : BitVec 32) : (clampBin a).toNat < 40 := by
  obtain ⟨h0, h1⟩ := clampBin_range a
  have hlt := (clampBin a).isLt
  have hc := BitVec.toInt_eq_toNat_cond (clampBin a)
  split at hc <;> omega

/-- … its signed reading is that number … -/
theorem clampBin_toInt (a : BitVec 32) : (clampBin a).toInt = ((clampBin a).toNat : Int) := by
  obtain ⟨h0, h1⟩ := clampBin_range a
  have hlt := (clampBin a).isLt
  have hc := BitVec.toInt_eq_toNat_cond (clampBin a)
  split at hc <;> omega

/-- … and the word is that number's word. -/
theorem clampBin_eq_ofNat (a : BitVec 32) : clampBin a = BitVec.ofNat 32 (clampBin a).toNat :=
  BitVec.eq_of_toNat_eq (by
    have hlt := (clampBin a).isLt
    simp only [BitVec.toNat_ofNat]
    omega)

/-- A clamped word is not below zero. -/
theorem clampBin_not_neg (a : BitVec 32) : IntOp.cmpi .slt (clampBin a) 0#32 = 0#1 := by
  have h := (clampBin_range a).1
  have h0 : (0#32 : BitVec 32).toInt = 0 := by decide
  have hd : decide ((clampBin a).toInt < 0) = false := decide_eq_false (by omega)
  simp [IntOp.cmpi, BitVec.slt, h0, hd]

/-! ## The scan over the bins -/

/-- Equality of two small words is equality of their numbers. -/
theorem cmpi_eq_ofNat (k n : Nat) (hk : k < 2 ^ 32) (hn : n < 2 ^ 32) :
    IntOp.cmpi .eq (BitVec.ofNat 32 k) (BitVec.ofNat 32 n) = if k = n then 1#1 else 0#1 := by
  unfold IntOp.cmpi
  by_cases h : k = n
  · subst h; simp
  · rw [if_neg h]
    have : (BitVec.ofNat 32 k == BitVec.ofNat 32 n) = false := by
      rw [beq_eq_false_iff_ne]
      intro e
      have := congrArg BitVec.toNat e
      simp only [BitVec.toNat_ofNat, Nat.mod_eq_of_lt hk, Nat.mod_eq_of_lt hn] at this
      exact h this
    simp [this]

/-- The scan: going through the bins of the list in order, the accumulator is replaced by bin `k`'s
    entry `r k` where the word `j` equals `k`. -/
def scan {α : Type} (j : BitVec 32) (r : Nat → α) : List Nat → α → α
  | [], z => z
  | k :: ks, z => scan j r ks (Scalar.select (IntOp.cmpi .eq j (BitVec.ofNat 32 k)) (r k) z)

/-- Over distinct bins the scan ends at the entry of the bin the word names, if it is among them, and
    at the initial accumulator otherwise. -/
theorem scan_eq {α : Type} (k : Nat) (hk : k < 2 ^ 32) (r : Nat → α) :
    ∀ (l : List Nat) (z : α), l.Nodup → (∀ n ∈ l, n < 2 ^ 32) →
      scan (BitVec.ofNat 32 k) r l z = if k ∈ l then r k else z
  | [], z, _, _ => by simp [scan]
  | n :: ks, z, hnd, hlt => by
    have hn : n < 2 ^ 32 := hlt n (List.mem_cons_self ..)
    rw [scan, scan_eq k hk r ks _ (List.nodup_cons.1 hnd).2 (fun a ha => hlt a (List.mem_cons_of_mem _ ha)),
      cmpi_eq_ofNat k n hk hn]
    by_cases h : k = n
    · subst h
      have : k ∉ ks := (List.nodup_cons.1 hnd).1
      simp [this, Scalar.select]
    · have h01 : ¬ (0#1 : BitVec 1) = 1 := by decide
      simp [h, Scalar.select, h01]

/-- The forty bins, in the order of the scan. -/
abbrev bins : List Nat :=
  [0, 1, 2, 3, 4, 5, 6, 7, 8, 9, 10, 11, 12, 13, 14, 15, 16, 17, 18, 19,
   20, 21, 22, 23, 24, 25, 26, 27, 28, 29, 30, 31, 32, 33, 34, 35, 36, 37, 38, 39]

/-- The scan over all forty bins at a word that names one of them is that bin's entry. -/
theorem scan_bins {α : Type} (k : Nat) (hk : k < 40) (r : Nat → α) (z : α) :
    scan (BitVec.ofNat 32 k) r bins z = r k := by
  rw [scan_eq k (by omega) r bins z (by decide) (by decide)]
  have : k ∈ bins := by
    have : ∀ k : Fin 40, k.val ∈ bins := by decide
    exact this ⟨k, hk⟩
  rw [if_pos this]

/-! ## The bin of an element, and the function both programs compute -/

/-- The bin word of an element: `clamp₀³⁹ (⌊20·x⌋ + 20)`, the floor converted to a signed word. -/
def binWord (x : Ideal .f32) : BitVec 32 :=
  clampBin (IntOp.addi (FloatOps.fptosi 32 (FloatOps.floor (FloatOps.mulf x (FloatOps.ofBits .f32 0x41A00000#32)))) 20#32)

/-- The bin of an element, as a column of the tables. -/
def bin (x : Ideal .f32) : Fin 40 := ⟨(binWord x).toNat, clampBin_toNat_lt _⟩

theorem binWord_eq_ofNat (x : Ideal .f32) : binWord x = BitVec.ofNat 32 (bin x).val := clampBin_eq_ofNat _

theorem binWord_toInt (x : Ideal .f32) : (binWord x).toInt = ((bin x).val : Int) := clampBin_toInt _

theorem binWord_not_neg (x : Ideal .f32) : IntOp.cmpi .slt (binWord x) 0#32 = 0#1 := clampBin_not_neg _

/-- An element's channel, as a row of the tables. -/
def chan (i : SX.Idx) : Fin 64 := ⟨(i 1).val, (i 1).isLt⟩

/-- THE RESULT, index by index: the weight table's entry at (channel, bin) times the element, plus the
    bias table's entry there. -/
def G (x : FVec Ideal SX .f32) (w b : FVec Ideal ST .f32) : FVec Ideal SX .f32 :=
  fun i => w (ix2 (chan i) (bin (x i))) * x i + b (ix2 (chan i) (bin (x i)))

end Cert.Mtlu

end
-- ==== Proof.Body.lean ====
/-
  What the kernel's body stores, element by element. The body loads its block of the input and its
  channel's row of each table, forms every element's bin word, and runs the scan over the forty bins
  twice — once keeping the weight row's entry, once the bias row's — before it stores
  `weight entry · element + bias entry`. Since the word names exactly one bin, each scan ends at that
  bin's entry: the stored value at an element is the row entries at the element's bin.
-/
import proofs.«421034_j36344013259315_3_alg».proof.Proof.Gen.KernelIdeal.Skeleton
import proofs.«421034_j36344013259315_3_alg».proof.Proof.Bins
import Idealize.ShloMosaic.Lib.ValueIdx
import Idealize.ShloMosaic.Lib.ValueLayout

noncomputable section

namespace Cert.KernelIdeal.Hand

open Idealize.ShloMosaic Idealize.ShloMosaic.ValueIdx
open Cert.KernelIdeal Cert.KernelIdeal.Gen Cert.Mtlu

variable {F : FTy → Type} [FloatOps F]

/-- The value the body stores, as a function of its three loads: the input block `x0` and the
    channel's rows `r1`, `r2` of the two tables (the body's operations, in its own order). -/
def body (x0 : Vec F S16x1x256x256 .f32) (r1 r2 : Vec F S1x40 .f32) : FVec F S16x1x256x256 .f32 :=
  let v10 := k0_pay1 x0
  let v13 := k0_pay2 r1
  let v16 := k0_pay3 r2
  let v34 := k0_pay6 x0 r1
  let v38 := k0_pay7 x0 r2
  let v40 := k0_pay8 x0
  let v43 := k0_pay9 r1
  let v94 := k0_pay15 v10 v13 v34 v40 v43
  let v98 := k0_pay16 v10 v16 v38 v40
  let v144 := k0_pay22 v10 v13 v94
  let v148 := k0_pay23 v10 v16 v98
  let v150 := k0_pay24 v10
  let v152 := k0_pay25 v13
  let v198 := k0_pay30 v10 v16 v148 v150
  let v200 := k0_pay31 v10
  let v204 := k0_pay32 v10 v13 v144 v150 v152
  let v207 := k0_pay33 v16
  let v254 := k0_pay39 v10 v13 v204
  let v258 := k0_pay40 v10 v16 v198 v200 v207
  let v260 := k0_pay41 v10
  let v261 := k0_pay42 v13
  let v308 := k0_pay47 v10 v16 v258 v260
  let v310 := k0_pay48 v10
  let v314 := k0_pay49 v10 v13 v254 v260 v261
  let v316 := k0_pay50 v16
  let v364 := k0_pay56 v10 v13 v314
  let v368 := k0_pay57 v10 v16 v308 v310 v316
  let v370 := k0_pay58 v10
  k0_pay59 x0 v10 v13 v16 v364 v368 v370

/-- A word comparison of vectors, read at an index. -/
theorem cmpi_apply {s : Shape} {w : Nat} (p : CmpIPredicate) (a b : IVec s w) (i : s.Idx) :
    cmpi p a b i = IntOp.cmpi p (a i) (b i) := rfl

/-- Entry `k` of a loaded table row (entry 0 for a number that is no bin). -/
def entry (r : Vec Ideal S1x40 .f32) (k : Nat) : Ideal .f32 :=
  if h : k < 40 then r (ix2 (0 : Fin 1) (⟨k, h⟩ : Fin 40)) else r (ix2 (0 : Fin 1) (0 : Fin 40))

/-- The one-element slice at offset `n` of a row flattened to forty entries is the row's entry `n`. -/
theorem pick (r : Vec Ideal S1x40 .f32) (n : Nat) (h1 : S40.Slices ![n] S1) (h2 : ∀ a, (![0] : Fin 1 → Nat) a < S1.size a) :
    extractAt ![0] (extractStridedSlice S1 ![n] (shapeCast S40 r shapeCasts_S1x40_S40) h1) h2 = entry r n := by
  have hn : n < 40 := by
    have := h1.2 0
    simp at this
    omega
  unfold entry
  rw [dif_pos hn]
  have key := shapeCast_1a_a_apply r shapeCasts_S1x40_S40 (⟨n, hn⟩ : Fin 40)
  unfold extractAt extractStridedSlice
  refine (congrArg (shapeCast S40 r shapeCasts_S1x40_S40) ?_).trans key
  funext a
  apply Fin.ext
  match a with
  | ⟨0, _⟩ => simp

/-- The body's bin word at an element is the element's bin word. -/
theorem word_apply (x0 : Vec Ideal S16x1x256x256 .f32) (y : S16x1x256x256.Idx) :
    k0_pay1 x0 y = binWord (x0 y) := rfl

/-- THE STORED VALUE AT AN ELEMENT: the weight row's entry at the element's bin times the element,
    plus the bias row's entry there. -/
theorem body_apply (x0 : Vec Ideal S16x1x256x256 .f32) (r1 r2 : Vec Ideal S1x40 .f32) (y : S16x1x256x256.Idx) :
    body x0 r1 r2 y = r1 (ix2 (0 : Fin 1) (bin (x0 y))) * x0 y + r2 (ix2 (0 : Fin 1) (bin (x0 y))) := by
  unfold body
  simp only [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay2, k0_pay3,
    addf_apply, mulf_apply, select_apply, broadcast_apply, cmpi_apply]
  rw [word_apply, binWord_eq_ofNat]
  rw [pick r1 39, pick r1 38, pick r1 37, pick r1 36, pick r1 35, pick r1 34, pick r1 33, pick r1 32, pick r1 31, pick r1 30, pick r1 29, pick r1 28, pick r1 27, pick r1 26, pick r1 25, pick r1 24, pick r1 23, pick r1 22, pick r1 21, pick r1 20, pick r1 19, pick r1 18, pick r1 17, pick r1 16, pick r1 15, pick r1 14, pick r1 13, pick r1 12, pick r1 11, pick r1 10, pick r1 9, pick r1 8, pick r1 7, pick r1 6, pick r1 5, pick r1 4, pick r1 3, pick r1 2, pick r1 1, pick r1 0, pick r2 39, pick r2 38, pick r2 37, pick r2 36, pick r2 35, pick r2 34, pick r2 33, pick r2 32, pick r2 31, pick r2 30, pick r2 29, pick r2 28, pick r2 27, pick r2 26, pick r2 25, pick r2 24, pick r2 23, pick r2 22, pick r2 21, pick r2 20, pick r2 19, pick r2 18, pick r2 17, pick r2 16, pick r2 15, pick r2 14, pick r2 13, pick r2 12, pick r2 11, pick r2 10, pick r2 9, pick r2 8, pick r2 7, pick r2 6, pick r2 5, pick r2 4, pick r2 3, pick r2 2, pick r2 1, pick r2 0]
  show scan (BitVec.ofNat 32 (bin (x0 y)).val) (entry r1) bins (FloatOps.ofBits .f32 0x00000000#32) * x0 y
      + scan (BitVec.ofNat 32 (bin (x0 y)).val) (entry r2) bins (FloatOps.ofBits .f32 0x00000000#32) = _
  rw [scan_bins _ (bin (x0 y)).isLt, scan_bins _ (bin (x0 y)).isLt]
  unfold entry
  rw [dif_pos (bin (x0 y)).isLt, dif_pos (bin (x0 y)).isLt]

end Cert.KernelIdeal.Hand

end
-- ==== Proof.KernelValue.lean ====
/-
  The kernel's result array, index by index. At grid point `t` the body sees block `t` of the input —
  channel `t`, every batch entry and every pixel — and the two tables whole; it reads row `t` of each
  table and stores, at every element of the block, the row entries at the element's bin
  (`body_apply`). The output's blocks are the input's (one channel each) and together cover the
  array, so the array ends at `G` of the three arguments.
-/
import proofs.«421034_j36344013259315_3_alg».proof.Proof.Gen.KernelIdeal.Value
import proofs.«421034_j36344013259315_3_alg».proof.Proof.Body
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Value Cert.Mtlu

section AnyInstance

variable {F : FTy → Type} [FloatOps F]

theorem hz : (![0, 0, 0, 0] : Fin 4 → Nat) = fun _ => 0 := funext fun a => by fin_cases a <;> rfl

/-- The row of a table the body loads at grid coordinates `i`: the channel's row. -/
def rowLd (i : grid0.Coords) (x : Vec F S64x40 .f32) : Vec F S1x40 .f32 :=
  View.ld x (Rect.unit (s := S64x40) (k0_off1 i) S1x40.size (k0_off1_inb i))

/-- What the body leaves in the output's staging buffer: `body` of the input block and of the two
    loaded rows (its one store covers the block). -/
theorem out_eq (c : Dev nD) (i : grid0.Coords) (arg1 : Memref sig .tc .vmem S16x1x256x256 .f32) (harg1 : arg1.IsWhole) (arg2 : Memref sig .tc .vmem S64x40 .f32) (harg2 : arg2.IsWhole) (arg3 : Memref sig .tc .vmem S64x40 .f32) (harg3 : arg3.IsWhole) (arg4 : Memref sig .tc .vmem S16x1x256x256 .f32) (harg4 : arg4.IsWhole)
    (x0 : Vec F S16x1x256x256 .f32) (x1 : Vec F S64x40 .f32) (x2 : Vec F S64x40 .f32) :
    out0_A_3 c i arg1 harg1 arg2 harg2 arg3 harg3 arg4 harg4 x0 x1 x2 = body x0 (rowLd i x1) (rowLd i x2) := by
  unfold out0_A_3
  rw [View.read_writes_eq_canon _ _ _ (cover0_A_3 c i arg1 harg1 arg2 harg2 arg3 harg3 arg4 harg4 x0 x1 x2)]
  unfold kernelRun0_A
  dsimp only
  try sl_unfold_words
  rw [View.canon_unit_zero hz]
  simp only [View.readAt_eq_ld, harg1.read_unread, harg2.read_unread, harg3.read_unread, View.ld_unit_zero (S := S16x1x256x256) hz]
  rfl

end AnyInstance

/-- Entry `k` of the loaded row is the table's entry at (channel, `k`). -/
theorem rowLd_apply (i : grid0.Coords) (x : Vec Ideal S64x40 .f32) (k : Fin 40) :
    rowLd i x (ix2 (0 : Fin 1) k) = x (ix2 (⟨(i 0).val, (i 0).isLt⟩ : Fin 64) k) := by
  unfold rowLd
  show x ((Rect.unit (s := S64x40) (k0_off1 i) S1x40.size (k0_off1_inb i)).emb (ix2 (0 : Fin 1) k)) = _
  congr 1
  funext a
  apply Fin.ext
  have hi : (i 0).val < 64 := (i 0).isLt
  match a with
  | ⟨0, _⟩ =>
    show k0_off1 i 0 + 1 * 0 = (i 0).val
    show (BitVec.ofNat 32 (i 0).val).toNat + 1 * 0 = (i 0).val
    rw [BitVec.toNat_ofNat, Nat.mod_eq_of_lt (by omega)]
    omega
  | ⟨1, _⟩ =>
    show k0_off1 i 1 + 1 * k.val = k.val
    show 0 + 1 * k.val = k.val
    omega

variable (m : (ℓ : Loc nD τ sig) → Buf (Elt Ideal) ℓ) (ρ : Dev nD → PrngReg)

/-- The blocks the body sees at point `t`, and the arrays as the region finds them, at their literal types. -/
abbrev xblk (c : Dev nD) (t : Fin cfg0.N) : Vec Ideal S16x1x256x256 .f32 := iblk m c 0 t
abbrev wblk (c : Dev nD) (t : Fin cfg0.N) : Vec Ideal S64x40 .f32 := iblk m c 1 t
abbrev bblk (c : Dev nD) (t : Fin cfg0.N) : Vec Ideal S64x40 .f32 := iblk m c 2 t
abbrev xarr (c : Dev nD) : Vec Ideal S16x64x256x256 .f32 := V m c main_arg0
abbrev warr (c : Dev nD) : Vec Ideal S64x40 .f32 := V m c main_arg1
abbrev barr (c : Dev nD) : Vec Ideal S64x40 .f32 := V m c main_arg2

/-- The printed index maps, decided over the grid: the input's and the output's block at point `t` is
    channel `t` (all batch entries, all pixels), and the tables' block is the tables. -/
theorem idx_facts : ∀ t : Fin cfg0.N,
    win0_0.index t (0 : Fin 4) = 0 ∧ win0_0.index t (1 : Fin 4) = ((grid0.coords t) 0).val
    ∧ win0_0.index t (2 : Fin 4) = 0 ∧ win0_0.index t (3 : Fin 4) = 0
    ∧ win0_3.index t (0 : Fin 4) = 0 ∧ win0_3.index t (1 : Fin 4) = ((grid0.coords t) 0).val
    ∧ win0_3.index t (2 : Fin 4) = 0 ∧ win0_3.index t (3 : Fin 4) = 0
    ∧ win0_1.index t (0 : Fin 2) = 0 ∧ win0_1.index t (1 : Fin 2) = 0
    ∧ win0_2.index t (0 : Fin 2) = 0 ∧ win0_2.index t (1 : Fin 2) = 0
    ∧ ((grid0.coords t) 0).val = t.val :=
  (by decide +kernel : ∀ t : Fin grid0.N, _)

/-- The input block at point `t`, read at `y`, is the input array read where the output's block at `t` puts `y`
    (the two windows have one index map). -/
theorem xblk_apply (c : Dev nD) (t : Fin cfg0.N) (y : S16x1x256x256.Idx) :
    xblk m c t y = xarr m c (((cfg0.win 3).blk t).view.emb y) := by
  show V m c main_arg0 (((cfg0.win 0).blk t).view.emb y) = V m c main_arg0 (((cfg0.win 3).blk t).view.emb y)
  congr 1

/-- The weight table's block is the table. -/
theorem wblk_apply (c : Dev nD) (t : Fin cfg0.N) (z : S64x40.Idx) : wblk m c t z = warr m c z := by
  obtain ⟨-, -, -, -, -, -, -, -, w0, w1, -⟩ := idx_facts t
  show V m c main_arg1 (((cfg0.win 1).blk t).view.emb z) = V m c main_arg1 z
  congr 1
  funext a
  apply Fin.ext
  match a with
  | ⟨0, _⟩ => show win0_1.index t (0 : Fin 2) * 64 + 1 * (z 0).val = (z 0).val; rw [w0]; omega
  | ⟨1, _⟩ => show win0_1.index t (1 : Fin 2) * 40 + 1 * (z 1).val = (z 1).val; rw [w1]; omega

/-- The bias table's block is the table. -/
theorem bblk_apply (c : Dev nD) (t : Fin cfg0.N) (z : S64x40.Idx) : bblk m c t z = barr m c z := by
  obtain ⟨-, -, -, -, -, -, -, -, -, -, w0, w1, -⟩ := idx_facts t
  show V m c main_arg2 (((cfg0.win 2).blk t).view.emb z) = V m c main_arg2 z
  congr 1
  funext a
  apply Fin.ext
  match a with
  | ⟨0, _⟩ => show win0_2.index t (0 : Fin 2) * 64 + 1 * (z 0).val = (z 0).val; rw [w0]; omega
  | ⟨1, _⟩ => show win0_2.index t (1 : Fin 2) * 40 + 1 * (z 1).val = (z 1).val; rw [w1]; omega

/-- The channel of an element of point `t`'s output block is `t`'s grid coordinate. -/
theorem chan_emb (t : Fin cfg0.N) (y : S16x1x256x256.Idx) :
    chan (((cfg0.win 3).blk t).view.emb y) = (⟨((grid0.coords t) 0).val, ((grid0.coords t) 0).isLt⟩ : Fin 64) := by
  obtain ⟨-, -, -, -, -, b1, -⟩ := idx_facts t
  apply Fin.ext
  show win0_3.index t (1 : Fin 4) * 1 + 1 * (y 1).val = ((grid0.coords t) 0).val
  have : (y 1).val < 1 := (y 1).isLt
  rw [b1]; omega

/-- WHAT POINT `t` WRITES BACK is block `t` of `G` of the argument arrays: at each element of the block the
    body's value is the table rows' entries at the element's bin (`body_apply`), the rows are the tables'
    row `t`, and `t` is the element's channel. -/
theorem flushed_eq (c : Dev nD) (t : Fin cfg0.N) :
    (dats m 0 c).flushed 3 t = ((cfg0.win 3).blk t).view.read (Elt Ideal) (G (xarr m c) (warr m c) (barr m c)) := by
  rw [flushed3_A, out_eq]
  funext y
  show body (xblk m c t) (rowLd (grid0.coords t) (wblk m c t)) (rowLd (grid0.coords t) (bblk m c t)) y
      = G (xarr m c) (warr m c) (barr m c) (((cfg0.win 3).blk t).view.emb y)
  rw [body_apply, rowLd_apply, rowLd_apply, wblk_apply, bblk_apply, xblk_apply]
  unfold G
  rw [chan_emb]

/-- An index of the array is in point `t`'s block iff each coordinate is in the block's range on its axis. -/
theorem mem_blk (t : Fin cfg0.N) (i : S16x64x256x256.Idx) :
    i ∈ ((cfg0.win 3).blk t).view.set ↔ ∀ a : Fin 4, win0_3.index t a * S16x1x256x256.size a ≤ (i a).val ∧ (i a).val < win0_3.index t a * S16x1x256x256.size a + S16x1x256x256.size a := by
  show i ∈ ((View.whole main_v0).slice (win0_3.rect t)).set ↔ _
  rw [View.set_slice_whole, Rect.mem_set_unit]
  exact Iff.rfl

/-- Every index of the array lies in the block of the point that is its channel. -/
theorem cover (i : S16x64x256x256.Idx) :
    ∃ t : Fin cfg0.N, (cfg0.win 3).flush t = true ∧ i ∈ ((cfg0.win 3).blk t).view.set := by
  have hN : cfg0.N = 64 := N_0
  have h0 : (i 0).val < 16 := (i 0).isLt
  have h1 : (i 1).val < 64 := (i 1).isLt
  have h2 : (i 2).val < 256 := (i 2).isLt
  have h3 : (i 3).val < 256 := (i 3).isLt
  refine ⟨⟨(i 1).val, by rw [hN]; exact h1⟩, flush0_3 _, ?_⟩
  rw [mem_blk]
  obtain ⟨-, -, -, -, b0, b1, b2, b3, -, -, -, -, ht⟩ := idx_facts ⟨(i 1).val, by rw [hN]; exact h1⟩
  intro a
  match a with
  | ⟨0, _⟩ =>
    show win0_3.index _ (0 : Fin 4) * 16 ≤ (i 0).val ∧ (i 0).val < win0_3.index _ (0 : Fin 4) * 16 + 16
    rw [b0]; omega
  | ⟨1, _⟩ =>
    show win0_3.index _ (1 : Fin 4) * 1 ≤ (i 1).val ∧ (i 1).val < win0_3.index _ (1 : Fin 4) * 1 + 1
    rw [b1, ht]; show (i 1).val * 1 ≤ (i 1).val ∧ (i 1).val < (i 1).val * 1 + 1; omega
  | ⟨2, _⟩ =>
    show win0_3.index _ (2 : Fin 4) * 256 ≤ (i 2).val ∧ (i 2).val < win0_3.index _ (2 : Fin 4) * 256 + 256
    rw [b2]; omega
  | ⟨3, _⟩ =>
    show win0_3.index _ (3 : Fin 4) * 256 ≤ (i 3).val ∧ (i 3).val < win0_3.index _ (3 : Fin 4) * 256 + 256
    rw [b3]; omega

/-- THE ARRAY after the run is `G` of the argument arrays. -/
theorem final (c : Dev nD) : (dats m 0 c).arrAt 3 cfg0.N = G (xarr m c) (warr m c) (barr m c) :=
  (dats m 0 c).arrAt_eq_of_cover 3 (G (xarr m c) (warr m c) (barr m c)) (fun t _ => flushed_eq m c t) cover

/-- The kernel's run, read: the result array at `G` of the arguments, the arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Hand

end
-- ==== Proof.PairGather.lean ====
/-
  A table lookup `T[r, k]` of a rank-2 table at an array of (row, column) pairs, as the host gather
  it lowers to — both operand axes collapsed, the pair on the last axis of the start indices —, read
  at one result index: the table at the pair's two words, each read as a signed integer and clamped
  into its axis.
-/
import Idealize.ShloMosaic.Lib.ValueIdx
import proofs.«421034_j36344013259315_3_alg».proof.Proof.Bins

noncomputable section

namespace Cert.Mtlu

open Idealize.ShloMosaic Idealize.ShloMosaic.ValueIdx

/-- The start indices' shape: one (row, column) pair per result element. -/
abbrev SP : Shape := ⟨5, ![16, 64, 256, 256, 2]⟩

/-- The gather's dimension numbers: no offset axes, both table axes collapsed and both named by the
    start index, the pair on axis 4, slices of one element. -/
abbrev pairDims (wf : GatherDims.WF ST SP SX [] [0, 1] [] [0, 1] [] 4 ![1, 1]) : GatherDims ST SP SX where
  offsetDims := []
  collapsedSliceDims := [0, 1]
  operandBatchingDims := []
  startIndicesBatchingDims := []
  startIndexMap := [0, 1]
  indexVectorDim := 4
  sliceSizes := ![1, 1]
  wf := wf

/-- Where result index `y` finds component `q` of its pair. -/
abbrev pairIdx (y : SX.Idx) (q : Fin 2) : SP.Idx :=
  fun a => match a with
    | ⟨0, _⟩ => ⟨(y 0).val, (y 0).isLt⟩
    | ⟨1, _⟩ => ⟨(y 1).val, (y 1).isLt⟩
    | ⟨2, _⟩ => ⟨(y 2).val, (y 2).isLt⟩
    | ⟨3, _⟩ => ⟨(y 3).val, (y 3).isLt⟩
    | ⟨4, _⟩ => q

/-- THE LOOKUP READ AT `y`: the table at the pair's row word clamped into `[0, 63]` and its column word
    clamped into `[0, 39]`. -/
theorem gather_pair_apply {α : Type} {w : Nat} (wf : GatherDims.WF ST SP SX [] [0, 1] [] [0, 1] [] 4 ![1, 1])
    (x : ST.Idx → α) (idx : IVec SP w) (y : SX.Idx) :
    Host.gather (pairDims wf) x idx y
      = x (ix2 (⟨min (idx (pairIdx y 0)).toInt.toNat 63, by omega⟩ : Fin 64)
               (⟨min (idx (pairIdx y 1)).toInt.toNat 39, by omega⟩ : Fin 40)) := by
  unfold Host.gather
  congr 1
  funext a
  refine Fin.ext ?_
  have hk : ∀ b : Fin 2, b ∉ (pairDims wf).sKept := fun b h =>
    ((GatherDims.mem_sKept _ _).mp h).1 (by fin_cases b <;> simp)
  match a with
  | ⟨0, _⟩ =>
    show (pairDims wf).start y idx 0 + (pairDims wf).batchCoord y 0 + (pairDims wf).offCoord y 0 = _
    rw [GatherDims.batchCoord_eq_zero _ _ _ List.not_mem_nil, GatherDims.offCoord_eq_zero _ _ _ (hk 0)]
    simp only [Nat.add_zero]
    unfold GatherDims.start
    rw [dif_pos (show (0 : Fin 2) ∈ (pairDims wf).startIndexMap by simp)]
    have hsi : (pairDims wf).siIdx y ⟨List.idxOf (0 : Fin 2) (pairDims wf).startIndexMap,
        List.idxOf_lt_length_iff.2 (by simp)⟩ = pairIdx y 0 := by
      funext b; refine Fin.ext ?_
      match b with
      | ⟨0, _⟩ => rfl
      | ⟨1, _⟩ => rfl
      | ⟨2, _⟩ => rfl
      | ⟨3, _⟩ => rfl
      | ⟨4, _⟩ => rfl
    rw [hsi]
    rfl
  | ⟨1, _⟩ =>
    show (pairDims wf).start y idx 1 + (pairDims wf).batchCoord y 1 + (pairDims wf).offCoord y 1 = _
    rw [GatherDims.batchCoord_eq_zero _ _ _ List.not_mem_nil, GatherDims.offCoord_eq_zero _ _ _ (hk 1)]
    simp only [Nat.add_zero]
    unfold GatherDims.start
    rw [dif_pos (show (1 : Fin 2) ∈ (pairDims wf).startIndexMap by simp)]
    have hsi : (pairDims wf).siIdx y ⟨List.idxOf (1 : Fin 2) (pairDims wf).startIndexMap,
        List.idxOf_lt_length_iff.2 (by simp)⟩ = pairIdx y 1 := by
      funext b; refine Fin.ext ?_
      match b with
      | ⟨0, _⟩ => rfl
      | ⟨1, _⟩ => rfl
      | ⟨2, _⟩ => rfl
      | ⟨3, _⟩ => rfl
      | ⟨4, _⟩ => rfl
    rw [hsi]
    rfl

/-- A small number's word is not below zero … -/
theorem small_not_neg (n : Nat) (hn : n < 64) : IntOp.cmpi .slt (BitVec.ofNat 32 n) 0#32 = 0#1 := by
  have hlt : (BitVec.ofNat 32 n).toNat = n := by rw [BitVec.toNat_ofNat]; exact Nat.mod_eq_of_lt (by omega)
  have hc := BitVec.toInt_eq_toNat_cond (BitVec.ofNat 32 n)
  rw [hlt] at hc
  have h0 : (0#32 : BitVec 32).toInt = 0 := by decide
  have hd : decide ((BitVec.ofNat 32 n).toInt < 0) = false := decide_eq_false (by split at hc <;> omega)
  simp [IntOp.cmpi, BitVec.slt, h0, hd]

/-- … and its signed reading is the number. -/
theorem small_toInt (n : Nat) (hn : n < 64) : (BitVec.ofNat 32 n).toInt = (n : Int) := by
  have hlt : (BitVec.ofNat 32 n).toNat = n := by rw [BitVec.toNat_ofNat]; exact Nat.mod_eq_of_lt (by omega)
  have hc := BitVec.toInt_eq_toNat_cond (BitVec.ofNat 32 n)
  rw [hlt] at hc
  split at hc <;> omega

/-- THE LOOKUP AT AN ELEMENT, for an array of pairs that holds at `y` the element's channel number and its
    bin word: the table's entry at (channel, bin) — both words are in range, so neither clamp moves them. -/
theorem lookup_of {α : Type} (wf : GatherDims.WF ST SP SX [] [0, 1] [] [0, 1] [] 4 ![1, 1])
    (x : ST.Idx → α) (idx : IVec SP 32) (y : SX.Idx) (v : Ideal .f32)
    (h0 : idx (pairIdx y 0) = BitVec.ofNat 32 (y 1).val) (h1 : idx (pairIdx y 1) = binWord v) :
    Host.gather (pairDims wf) x idx y = x (ix2 (chan y) (bin v)) := by
  rw [gather_pair_apply]
  have hy : (y 1).val < 64 := (y 1).isLt
  have hb : (bin v).val < 40 := (bin v).isLt
  congr 1
  funext a
  apply Fin.ext
  match a with
  | ⟨0, _⟩ =>
    show min (idx (pairIdx y 0)).toInt.toNat 63 = (y 1).val
    rw [h0, small_toInt _ hy]; omega
  | ⟨1, _⟩ =>
    show min (idx (pairIdx y 1)).toInt.toNat 39 = (bin v).val
    rw [h1, binWord_toInt]; omega

end Cert.Mtlu

end
-- ==== Proof.RefValue.lean ====
/-
  The reference's result, index by index. It forms the same bin word at every element, builds an array of
  (channel, bin) pairs — the channel numbers from an iota, both passed through the wrap of negative
  indices (a negative index counts from the end), which moves neither since neither is negative — and looks both tables up at the pairs. So its
  result is `G` of the arguments too.
-/
import proofs.«421034_j36344013259315_3_alg».proof.Proof.RefRead
import proofs.«421034_j36344013259315_3_alg».proof.Proof.PairGather
import Idealize.ShloMosaic.Lib.Pipeline.Value
import Idealize.ShloMosaic.Lib.ValueIdx

noncomputable section

namespace Cert.ReferenceIdeal.RefValue

open Idealize.ShloMosaic Idealize.ShloMosaic.ValueIdx
open Cert.ReferenceIdeal Cert.ReferenceIdeal.Gen Cert.ReferenceIdeal.ReadP Cert.Mtlu

/-- The reference's clipped bin word at an element is the element's bin word. -/
theorem word_apply (x0 : (⟨S16x64x256x256, .f32⟩ : BufTy).Contents (Elt Ideal)) (i : S16x64x256x256.Idx) :
    val_main_v6 (F := Ideal) x0 i = binWord (x0 i) := by
  rw [val_main_v6_apply, val_main_call0_v4_apply, val_main_call0_v3_apply, val_main_c_1_apply,
    val_main_call0_v2_apply, val_main_call0_v1_apply, val_main_call0_v0_apply, val_main_c_0_apply,
    val_main_v5_apply, val_main_v3_apply, val_main_v2_apply, val_main_v1_apply, val_main_v0_apply,
    val_main_cst_apply, val_main_v4_apply, val_main_c_apply]
  rfl

/-- The iota reshaped to `[1, 64, 1, 1]` holds at `j` the word of `j`'s channel coordinate. -/
theorem iota_apply (j : S1x64x1x1.Idx) : val_main_v8 (F := Ideal) j = BitVec.ofNat 32 (j 1).val := by
  rw [val_main_v8_apply, val_main_v7_apply]
  have h0 : (j 0).val < 1 := (j 0).isLt
  have h2 : (j 2).val < 1 := (j 2).isLt
  have h3 : (j 3).val < 1 := (j 3).isLt
  have e : ((idx_main_v8 j) 0).val = (j 1).val := by
    show (((j 0).val * 64 + (j 1).val) * 1 + (j 2).val) * 1 + (j 3).val = (j 1).val
    omega
  rw [e]

/-- The wrap of negative indices leaves the channel numbers as they are (first lookup's copy) … -/
theorem chan_apply (j : S1x64x1x1.Idx) : val_main_v13 (F := Ideal) j = BitVec.ofNat 32 (j 1).val := by
  rw [val_main_v13_apply, val_main_v10_apply, val_main_v9_apply, val_main_c_2_apply, iota_apply,
    small_not_neg _ (j 1).isLt, select_zero]

/-- … and the second lookup's copy. -/
theorem chan_apply' (j : S1x64x1x1.Idx) : val_main_v28 (F := Ideal) j = BitVec.ofNat 32 (j 1).val := by
  rw [val_main_v28_apply, val_main_v25_apply, val_main_v24_apply, val_main_c_6_apply, iota_apply,
    small_not_neg _ (j 1).isLt, select_zero]

/-- The wrap leaves the bin words as they are: a bin word is not negative (first lookup's copy) … -/
theorem bins_apply (x0 : (⟨S16x64x256x256, .f32⟩ : BufTy).Contents (Elt Ideal)) (i : S16x64x256x256.Idx) :
    val_main_v18 (F := Ideal) x0 i = binWord (x0 i) := by
  rw [val_main_v18_apply, val_main_v15_apply, val_main_v14_apply, val_main_c_4_apply, word_apply,
    binWord_not_neg, select_zero]

/-- … and the second lookup's copy. -/
theorem bins_apply' (x0 : (⟨S16x64x256x256, .f32⟩ : BufTy).Contents (Elt Ideal)) (i : S16x64x256x256.Idx) :
    val_main_v33 (F := Ideal) x0 i = binWord (x0 i) := by
  rw [val_main_v33_apply, val_main_v30_apply, val_main_v29_apply, val_main_c_8_apply, word_apply,
    binWord_not_neg, select_zero]

/-- Element `i`'s index in an array with one more, unit, axis. -/
abbrev lastIdx (i : S16x64x256x256.Idx) : S16x64x256x256x1.Idx :=
  fun a => match a with
    | ⟨0, _⟩ => ⟨(i 0).val, (i 0).isLt⟩
    | ⟨1, _⟩ => ⟨(i 1).val, (i 1).isLt⟩
    | ⟨2, _⟩ => ⟨(i 2).val, (i 2).isLt⟩
    | ⟨3, _⟩ => ⟨(i 3).val, (i 3).isLt⟩
    | ⟨4, _⟩ => ⟨0, Nat.one_pos⟩

theorem idx20_last (i : S16x64x256x256.Idx) : idx_main_v20 (lastIdx i) = i := by
  funext a; apply Fin.ext
  match a with | ⟨0, _⟩ => rfl | ⟨1, _⟩ => rfl | ⟨2, _⟩ => rfl | ⟨3, _⟩ => rfl
theorem idx21_last (i : S16x64x256x256.Idx) : idx_main_v21 (lastIdx i) = i := by
  funext a; apply Fin.ext
  match a with | ⟨0, _⟩ => rfl | ⟨1, _⟩ => rfl | ⟨2, _⟩ => rfl | ⟨3, _⟩ => rfl
theorem idx35_last (i : S16x64x256x256.Idx) : idx_main_v35 (lastIdx i) = i := by
  funext a; apply Fin.ext
  match a with | ⟨0, _⟩ => rfl | ⟨1, _⟩ => rfl | ⟨2, _⟩ => rfl | ⟨3, _⟩ => rfl
theorem idx36_last (i : S16x64x256x256.Idx) : idx_main_v36 (lastIdx i) = i := by
  funext a; apply Fin.ext
  match a with | ⟨0, _⟩ => rfl | ⟨1, _⟩ => rfl | ⟨2, _⟩ => rfl | ⟨3, _⟩ => rfl

/-- The first lookup's pairs hold at element `i` its channel number … -/
theorem pairs_chan (x0 : (⟨S16x64x256x256, .f32⟩ : BufTy).Contents (Elt Ideal)) (i : S16x64x256x256.Idx) :
    val_main_v22 (F := Ideal) x0 (pairIdx i 0) = BitVec.ofNat 32 (i 1).val := by
  unfold val_main_v22
  rw [concatenate_pair_apply_left (t := S16x64x256x256x2) (s₁ := S16x64x256x256x1) (s₂ := S16x64x256x256x1) (4 : Fin 5) _ _ _ (pairIdx i 0) rfl (lastIdx i)
    (fun b => by match b with | ⟨0, _⟩ => rfl | ⟨1, _⟩ => rfl | ⟨2, _⟩ => rfl | ⟨3, _⟩ => rfl | ⟨4, _⟩ => rfl)]
  rw [val_main_v20_apply, idx20_last, val_main_v19_apply, chan_apply]

/-- … and its bin word. -/
theorem pairs_bin (x0 : (⟨S16x64x256x256, .f32⟩ : BufTy).Contents (Elt Ideal)) (i : S16x64x256x256.Idx) :
    val_main_v22 (F := Ideal) x0 (pairIdx i 1) = binWord (x0 i) := by
  unfold val_main_v22
  rw [concatenate_pair_apply_right (t := S16x64x256x256x2) (s₁ := S16x64x256x256x1) (s₂ := S16x64x256x256x1) (4 : Fin 5) _ _ _ (pairIdx i 1) rfl rfl (lastIdx i)
    (fun b hb => by match b with | ⟨0, _⟩ => rfl | ⟨1, _⟩ => rfl | ⟨2, _⟩ => rfl | ⟨3, _⟩ => rfl | ⟨4, _⟩ => exact absurd rfl hb)
    rfl]
  rw [val_main_v21_apply, idx21_last, bins_apply]

/-- The second lookup's pairs likewise. -/
theorem pairs_chan' (x0 : (⟨S16x64x256x256, .f32⟩ : BufTy).Contents (Elt Ideal)) (i : S16x64x256x256.Idx) :
    val_main_v37 (F := Ideal) x0 (pairIdx i 0) = BitVec.ofNat 32 (i 1).val := by
  unfold val_main_v37
  rw [concatenate_pair_apply_left (t := S16x64x256x256x2) (s₁ := S16x64x256x256x1) (s₂ := S16x64x256x256x1) (4 : Fin 5) _ _ _ (pairIdx i 0) rfl (lastIdx i)
    (fun b => by match b with | ⟨0, _⟩ => rfl | ⟨1, _⟩ => rfl | ⟨2, _⟩ => rfl | ⟨3, _⟩ => rfl | ⟨4, _⟩ => rfl)]
  rw [val_main_v35_apply, idx35_last, val_main_v34_apply, chan_apply']

theorem pairs_bin' (x0 : (⟨S16x64x256x256, .f32⟩ : BufTy).Contents (Elt Ideal)) (i : S16x64x256x256.Idx) :
    val_main_v37 (F := Ideal) x0 (pairIdx i 1) = binWord (x0 i) := by
  unfold val_main_v37
  rw [concatenate_pair_apply_right (t := S16x64x256x256x2) (s₁ := S16x64x256x256x1) (s₂ := S16x64x256x256x1) (4 : Fin 5) _ _ _ (pairIdx i 1) rfl rfl (lastIdx i)
    (fun b hb => by match b with | ⟨0, _⟩ => rfl | ⟨1, _⟩ => rfl | ⟨2, _⟩ => rfl | ⟨3, _⟩ => rfl | ⟨4, _⟩ => exact absurd rfl hb)
    rfl]
  rw [val_main_v36_apply, idx36_last, bins_apply']

/-- THE REFERENCE'S RESULT is `G` of its arguments: each lookup reads its table at (channel, bin). -/
theorem result_eq (x0 : (⟨S16x64x256x256, .f32⟩ : BufTy).Contents (Elt Ideal)) (x1 x2 : (⟨S64x40, .f32⟩ : BufTy).Contents (Elt Ideal)) :
    val_main_v40 (F := Ideal) x0 x1 x2 = G x0 x1 x2 := by
  funext i
  rw [val_main_v40_apply, val_main_v39_apply]
  unfold val_main_v23 val_main_v38
  have hw : Host.gather gather_S64x40_S16x64x256x256x2_S16x64x256x256_n_01_n_n_01_4_11 x1 (val_main_v22 (F := Ideal) x0) i
      = x1 (ix2 (chan i) (bin (x0 i))) :=
    lookup_of Cert.ReferenceIdeal.Gen.gather_S64x40_S16x64x256x256x2_S16x64x256x256_n_01_n_n_01_4_11_wf x1 _ i (x0 i)
      (pairs_chan x0 i) (pairs_bin x0 i)
  have hb : Host.gather gather_S64x40_S16x64x256x256x2_S16x64x256x256_n_01_n_n_01_4_11 x2 (val_main_v37 (F := Ideal) x0) i
      = x2 (ix2 (chan i) (bin (x0 i))) :=
    lookup_of Cert.ReferenceIdeal.Gen.gather_S64x40_S16x64x256x256x2_S16x64x256x256_n_01_n_n_01_4_11_wf x2 _ i (x0 i)
      (pairs_chan' x0 i) (pairs_bin' x0 i)
  rw [hw, hb]
  rfl

end Cert.ReferenceIdeal.RefValue

end
-- ==== Proof.lean ====
/-
  The certificate of the bin-lookup activation: a kernel that finds each element's table entries by a
  scan over the forty bins, against a reference that looks the tables up at (channel, bin) pairs.
  Every element `x` has the bin word `clamp₀³⁹ (⌊20·x⌋ + 20)`; because the word is clamped into
  `[0, 39]` it names exactly one bin, so the scan ends at that bin's entries, and because it is not
  negative and below forty the reference's wrap and clamp leave it alone. Both programs therefore end
  with `w[c, bin x] · x + b[c, bin x]` at every element (`Cert.Mtlu.G`), on all extended reals: no
  finiteness is used. The idealization rewrote nothing, so `preserves` is trivial; the kernels'
  frames are the generated ones and the reference's frame is its run with the result dropped.
-/
import proofs.«421034_j36344013259315_3_alg».proof.Defs
import proofs.«421034_j36344013259315_3_alg».proof.Proof.Gen.Kernel
import proofs.«421034_j36344013259315_3_alg».proof.Proof.Gen.Kernel.Skeleton
import proofs.«421034_j36344013259315_3_alg».proof.Proof.Gen.Kernel.Launch
import proofs.«421034_j36344013259315_3_alg».proof.Proof.Gen.Kernel.Points
import proofs.«421034_j36344013259315_3_alg».proof.Proof.Gen.Kernel.Frame
import proofs.«421034_j36344013259315_3_alg».proof.Proof.Gen.KernelIdeal
import proofs.«421034_j36344013259315_3_alg».proof.Proof.Gen.KernelIdeal.Skeleton
import proofs.«421034_j36344013259315_3_alg».proof.Proof.Gen.KernelIdeal.Launch
import proofs.«421034_j36344013259315_3_alg».proof.Proof.Gen.KernelIdeal.Points
import proofs.«421034_j36344013259315_3_alg».proof.Proof.Gen.KernelIdeal.Frame
import proofs.«421034_j36344013259315_3_alg».proof.Proof.Gen.KernelIdeal.Value
import proofs.«421034_j36344013259315_3_alg».proof.Proof.Gen.ReferenceIdeal
import proofs.«421034_j36344013259315_3_alg».proof.Proof.Gen.Pre_finite_inputs
import proofs.«421034_j36344013259315_3_alg».proof.Proof.KernelValue
import proofs.«421034_j36344013259315_3_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the arguments both programs end with `G` of the arguments: the kernel's
    blocks tile the array with `G`'s blocks, and the reference's composed term is `G` index by index. -/
theorem algebraic : Cert.algebraic_KernelIdeal_ReferenceIdeal := by
  intro m ρ m' ρ' _ hagree
  refine ⟨fun c => Cert.Mtlu.G (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.Hand.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v40_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
